-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x128 : Shape := ⟨4, ![4, 16, 2048, 128]⟩
abbrev S_ : Shape := ⟨0, ![]⟩

class Facts : Prop where
  bcast_S_S4x16x2048x128 : S_.BroadcastsInDim S4x16x2048x128 (![] : Fin 0 → Fin S4x16x2048x128.rank)
  reducesTo_S4x16x2048x128_S_d0_1_2_3 : S4x16x2048x128.ReducesTo [0, 1, 2, 3] S_
  h_S_ : 0 < S_.numel

variable [Facts]

def fn {F : FTy → Type} [FloatOps F] (main_arg0 : FVec F S4x16x2048x128 .f32) (main_arg1 : FVec F S4x16x2048x128 .f32) (main_arg2 : FVec F S4x16x2048x128 .f32) : IVec S_ 1 :=
  let main_v0 : FVec F S4x16x2048x128 .f32 := Host.absf main_arg0
  let main_cst : FVec F S_ .f32 := constant S_ .f32 0x7F800000#32
  let main_v1 : FVec F S4x16x2048x128 .f32 := broadcastInDim S4x16x2048x128 ![] bcast_S_S4x16x2048x128 main_cst
  let main_v2 : IVec S4x16x2048x128 1 := cmpf .olt main_v0 main_v1
  let main_c : IVec S_ 1 := constantI S_ 1 1#1
  let main_v3 : IVec S_ 1 := (fun x v => Host.reduce IntOp.andi x v reducesTo_S4x16x2048x128_S_d0_1_2_3 h_S_) main_v2 main_c
  let main_v4 : FVec F S4x16x2048x128 .f32 := Host.absf main_arg1
  let main_cst_0 : FVec F S_ .f32 := constant S_ .f32 0x7F800000#32
  let main_v5 : FVec F S4x16x2048x128 .f32 := broadcastInDim S4x16x2048x128 ![] bcast_S_S4x16x2048x128 main_cst_0
  let main_v6 : IVec S4x16x2048x128 1 := cmpf .olt main_v4 main_v5
  let main_c_1 : IVec S_ 1 := constantI S_ 1 1#1
  let main_v7 : IVec S_ 1 := (fun x v => Host.reduce IntOp.andi x v reducesTo_S4x16x2048x128_S_d0_1_2_3 h_S_) main_v6 main_c_1
  let main_v8 : IVec S_ 1 := andi main_v3 main_v7
  let main_v9 : FVec F S4x16x2048x128 .f32 := Host.absf main_arg2
  let main_cst_2 : FVec F S_ .f32 := constant S_ .f32 0x7F800000#32
  let main_v10 : FVec F S4x16x2048x128 .f32 := broadcastInDim S4x16x2048x128 ![] bcast_S_S4x16x2048x128 main_cst_2
  let main_v11 : IVec S4x16x2048x128 1 := cmpf .olt main_v9 main_v10
  let main_c_3 : IVec S_ 1 := constantI S_ 1 1#1
  let main_v12 : IVec S_ 1 := (fun x v => Host.reduce IntOp.andi x v reducesTo_S4x16x2048x128_S_d0_1_2_3 h_S_) main_v11 main_c_3
  let main_v13 : IVec S_ 1 := andi main_v8 main_v12
  main_v13
-- ==== Kernel.lean ====
abbrev S4x16x2048x128 : Shape := ⟨4, ![4, 16, 2048, 128]⟩
abbrev S64x2048x128 : Shape := ⟨3, ![64, 2048, 128]⟩
abbrev S1x1024x128 : Shape := ⟨3, ![1, 1024, 128]⟩
abbrev S1x2048x128 : Shape := ⟨3, ![1, 2048, 128]⟩
abbrev S2048x128 : Shape := ⟨2, ![2048, 128]⟩
abbrev S1024x128 : Shape := ⟨2, ![1024, 128]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S4x16x2048x128, .f32⟩
  | .hbm, ⟨1, _⟩ => ⟨S4x16x2048x128, .f32⟩
  | .hbm, ⟨2, _⟩ => ⟨S4x16x2048x128, .f32⟩
  | .hbm, ⟨3, _⟩ => ⟨S64x2048x128, .f32⟩
  | .hbm, ⟨4, _⟩ => ⟨S64x2048x128, .f32⟩
  | .hbm, ⟨5, _⟩ => ⟨S64x2048x128, .f32⟩
  | .hbm, ⟨6, _⟩ => ⟨S64x2048x128, .f32⟩
  | .hbm, ⟨7, _⟩ => ⟨S4x16x2048x128, .f32⟩
  | .local _ .vmem, ⟨0, _⟩ => ⟨S1x1024x128, .f32⟩
  | .local _ .vmem, ⟨1, _⟩ => ⟨S1x1024x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x1024x128, .f32⟩
  | .local _ .vmem, ⟨7, _⟩ => ⟨S1x1024x128, .f32⟩
  | .local _ .vmem, ⟨8, _⟩ => ⟨S2048x128, .bf16⟩
  | .local _ .vmem, ⟨9, _⟩ => ⟨S2048x128, .bf16⟩
  | _, _ => ⟨S4x16x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x16x2048x128_S64x2048x128 : S4x16x2048x128.ShapeCasts S64x2048x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S2048x128_S2048x128_0_0 : (Rect.unit (s := S2048x128) ![0, 0] S2048x128.size inb_S2048x128_S2048x128_0_0).PackedRows (EltTy.packing .bf16)
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x128 : S1024x1.Broadcasts S1024x128
  shapeCasts_S1024x128_S1x1024x128 : S1024x128.ShapeCasts S1x1024x128
  shapeCasts_S64x2048x128_S4x16x2048x128 : S64x2048x128.ShapeCasts S4x16x2048x128
  dot_S1024x128_S2048x128_S1024x2048_1_1_0_0_n_n_wf : DotDims.WF S1024x128 S2048x128 S1024x2048 [1] [1] [0] [0] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S64x2048x128.size a
  hwx0_0 : ∀ i : grid0.Coords, EltTy.bits .f32 = 32 ∨ (Rect.block (s := S64x2048x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S64x2048x128.size a
  hwx0_1 : ∀ i : grid0.Coords, EltTy.bits .f32 = 32 ∨ (Rect.block (s := S64x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x128.size a ≤ S64x2048x128.size a
  hwx0_2 : ∀ i : grid0.Coords, EltTy.bits .f32 = 32 ∨ (Rect.block (s := S64x2048x128) S1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S64x2048x128.size a
  hwx0_3 : ∀ i : grid0.Coords, EltTy.bits .f32 = 32 ∨ (Rect.block (s := S64x2048x128) S1x1024x128.size (cc0_transform_3 i) (hinb0_3 i)).WholeWords (EltTy.packing .f32)

variable [Facts₀]

def dot_S1024x128_S2048x128_S1024x2048_1_1_0_0_n_n : DotDims S1024x128 S2048x128 S1024x2048 where
  lhsContracting := [1]
  rhsContracting := [1]
  lhsNonContracting := [0]
  rhsNonContracting := [0]
  lhsBatch := []
  rhsBatch := []
  wf := dot_S1024x128_S2048x128_S1024x2048_1_1_0_0_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_v0) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x16x2048x128 : Shape := ⟨4, ![4, 16, 2048, 128]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S4x16x2048x128, .f32⟩
  | .hbm, ⟨1, _⟩ => ⟨S4x16x2048x128, .f32⟩
  | .hbm, ⟨2, _⟩ => ⟨S4x16x2048x128, .f32⟩
  | .hbm, ⟨3, _⟩ => ⟨S4x16x2048x2048, .f32⟩
  | .hbm, ⟨4, _⟩ => ⟨S_, .f32⟩
  | .hbm, ⟨5, _⟩ => ⟨S4x16x2048x2048, .f32⟩
  | .hbm, ⟨6, _⟩ => ⟨S4x16x2048x2048, .f32⟩
  | .hbm, ⟨7, _⟩ => ⟨S_, .f32⟩
  | .hbm, ⟨8, _⟩ => ⟨S4x16x2048, .f32⟩
  | .hbm, ⟨9, _⟩ => ⟨S_, .f32⟩
  | .hbm, ⟨10, _⟩ => ⟨S4x16x2048, .f32⟩
  | .hbm, ⟨11, _⟩ => ⟨S4x16x2048, .f32⟩
  | .hbm, ⟨12, _⟩ => ⟨S4x16x2048x1, .f32⟩
  | .hbm, ⟨13, _⟩ => ⟨S4x16x2048x2048, .f32⟩
  | .hbm, ⟨14, _⟩ => ⟨S4x16x2048x2048, .f32⟩
  | .hbm, ⟨15, _⟩ => ⟨S4x16x2048x2048, .f32⟩
  | .hbm, ⟨16, _⟩ => ⟨S_, .f32⟩
  | .hbm, ⟨17, _⟩ => ⟨S4x16x2048, .f32⟩
  | .hbm, ⟨18, _⟩ => ⟨S4x16x2048x1, .f32⟩
  | .hbm, ⟨19, _⟩ => ⟨S4x16x2048x2048, .f32⟩
  | .hbm, ⟨20, _⟩ => ⟨S4x16x2048x2048, .f32⟩
  | .hbm, ⟨21, _⟩ => ⟨S4x16x2048x128, .f32⟩
  | _, _ => ⟨S4x16x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S4x16x2048x2048 : S_.BroadcastsInDim S4x16x2048x2048 (![] : Fin 0 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x128_S4x16x2048x128_S4x16x2048x2048_3_3_2_2_01_01_wf : DotDims.WF S4x16x2048x128 S4x16x2048x128 S4x16x2048x2048 [3] [3] [2] [2] [0, 1] [0, 1]
  dot_S4x16x2048x2048_S4x16x2048x128_S4x16x2048x128_3_2_2_3_01_01_wf : DotDims.WF S4x16x2048x2048 S4x16x2048x128 S4x16x2048x128 [3] [2] [2] [3] [0, 1] [0, 1]

variable [Facts₀]

def dot_S4x16x2048x128_S4x16x2048x128_S4x16x2048x2048_3_3_2_2_01_01 : DotDims S4x16x2048x128 S4x16x2048x128 S4x16x2048x2048 where
  lhsContracting := [3]
  rhsContracting := [3]
  lhsNonContracting := [2]
  rhsNonContracting := [2]
  lhsBatch := [0, 1]
  rhsBatch := [0, 1]
  wf := dot_S4x16x2048x128_S4x16x2048x128_S4x16x2048x2048_3_3_2_2_01_01_wf
def dot_S4x16x2048x2048_S4x16x2048x128_S4x16x2048x128_3_2_2_3_01_01 : DotDims S4x16x2048x2048 S4x16x2048x128 S4x16x2048x128 where
  lhsContracting := [3]
  rhsContracting := [2]
  lhsNonContracting := [2]
  rhsNonContracting := [3]
  lhsBatch := [0, 1]
  rhsBatch := [0, 1]
  wf := dot_S4x16x2048x2048_S4x16x2048x128_S4x16x2048x128_3_2_2_3_01_01_wf

class Facts : Prop extends Facts₀ where

variable [Facts]
-- ==== Proof.Spec.lean ====
/-
  Scaled-dot-product attention for one query row, over the extended reals, in the two orders of
  normalisation that the two programs use.

  For a query row `q : Fin e → EReal`, keys `k : Fin n → Fin e → EReal` and values
  `v : Fin n → Fin d → EReal`:
    score j        = ∑ₐ q a · k j a
    rowMax         = max over j of score j (the fold of `max` from ⊥)
    weight j       = exp (score j − rowMax)
    denom          = ∑ⱼ weight j
    normLast  c    = (∑ⱼ weight j · v j c) / denom        (divide once, after the value product)
    normFirst c    = ∑ⱼ (weight j / denom) · v j c        (softmax first, then the value product)
  When every entry of q, k, v is a real number and there is at least one key, every score is real,
  so the row maximum is real, every weight is a positive real, the denominator is a positive real,
  and division by it distributes over the finite sum: `normLast = normFirst`.  On the extended
  reals without finiteness this distributivity fails (⊤ + ⊥), which is why finiteness is assumed.
-/
import Idealize.ShloMosaic.PureOps.Ideal

noncomputable section

open scoped BigOperators

namespace Cert.Attention

open Idealize.ShloMosaic

variable {n e d : ℕ}

/-- The score of key `j` against the query row: their inner product. -/
def score (q : Fin e → EReal) (k : Fin n → Fin e → EReal) (j : Fin n) : EReal := ∑ a : Fin e, q a * k j a

/-- The largest score of the row (the fold of `max` from ⊥ over the keys). -/
def rowMax (q : Fin e → EReal) (k : Fin n → Fin e → EReal) : EReal :=
  (Finset.univ : Finset (Fin n)).fold max ⊥ (score q k)

/-- The unnormalised softmax weight of key `j`. -/
def weight (q : Fin e → EReal) (k : Fin n → Fin e → EReal) (j : Fin n) : EReal :=
  Ideal.exp (score q k j - rowMax q k)

/-- The softmax denominator of the row. -/
def denom (q : Fin e → EReal) (k : Fin n → Fin e → EReal) : EReal := ∑ j : Fin n, weight q k j

/-- Attention output, normalised after the product with the values. -/
def normLast (q : Fin e → EReal) (k : Fin n → Fin e → EReal) (v : Fin n → Fin d → EReal) (c : Fin d) : EReal :=
  Ideal.div (∑ j : Fin n, weight q k j * v j c) (denom q k)

/-- Attention output, the weights normalised before the product with the values. -/
def normFirst (q : Fin e → EReal) (k : Fin n → Fin e → EReal) (v : Fin n → Fin d → EReal) (c : Fin d) : EReal :=
  ∑ j : Fin n, Ideal.div (weight q k j) (denom q k) * v j c

/-- A finite sum of real numbers, each read as an extended real, is the real sum read as one. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- With real entries and at least one key, normalising last or first gives the same output. -/
theorem normLast_eq_normFirst (hn : 0 < n) (q : Fin e → EReal) (k : Fin n → Fin e → EReal) (v : Fin n → Fin d → EReal)
    (hq : ∀ a, ∃ r : ℝ, q a = r) (hk : ∀ j a, ∃ r : ℝ, k j a = r) (hv : ∀ j c, ∃ r : ℝ, v j c = r) (c : Fin d) :
    normLast q k v c = normFirst q k v c := by
  classical
  choose qr hqr using hq
  choose kr hkr using hk
  choose vr hvr using hv
  -- every score is a real number
  have hs : ∀ j, score q k j = ((∑ a, qr a * kr j a : ℝ) : EReal) := fun j => by
    unfold score
    rw [← coe_sum]
    exact Finset.sum_congr rfl fun a _ => by rw [hqr, hkr, EReal.coe_mul]
  -- so the row maximum is a real number: below ⊤ because every score is, above ⊥ because there is a key
  have j0 : Fin n := ⟨0, hn⟩
  have hlt : rowMax q k < ⊤ := by
    unfold rowMax
    rw [Finset.fold_max_lt]
    exact ⟨bot_lt_top, fun j _ => by rw [hs]; exact EReal.coe_lt_top _⟩
  have hgt : ⊥ < rowMax q k := by
    have : score q k j0 ≤ rowMax q k := by
      unfold rowMax
      rw [Finset.le_fold_max]
      exact Or.inr ⟨j0, Finset.mem_univ _, le_rfl⟩
    exact lt_of_lt_of_le (by rw [hs]; exact EReal.bot_lt_coe _) this
  obtain ⟨mr, hmr⟩ : ∃ r : ℝ, rowMax q k = r := by
    lift rowMax q k to ℝ using ⟨hlt.ne, hgt.ne'⟩ with r hr
    exact ⟨r, rfl⟩
  -- every weight is a positive real
  have hw : ∀ j, weight q k j = ((Real.exp ((∑ a, qr a * kr j a) - mr) : ℝ) : EReal) := fun j => by
    unfold weight
    rw [hs, hmr, ← EReal.coe_sub, Ideal.exp_coe]
  -- and so is the denominator
  have hd : denom q k = ((∑ j, Real.exp ((∑ a, qr a * kr j a) - mr) : ℝ) : EReal) := by
    unfold denom
    rw [← coe_sum]
    exact Finset.sum_congr rfl fun j _ => hw j
  have hpos : (0 : ℝ) < ∑ j : Fin n, Real.exp ((∑ a, qr a * kr j a) - mr) :=
    Finset.sum_pos (fun j _ => Real.exp_pos _) ⟨j0, Finset.mem_univ _⟩
  unfold normLast normFirst
  rw [hd]
  simp only [Ideal.div_coe hpos.ne']
  -- both sides are now real: divide the sum, or sum the quotients
  have hl : ∑ j : Fin n, weight q k j * v j c
      = ((∑ j, Real.exp ((∑ a, qr a * kr j a) - mr) * vr j c : ℝ) : EReal) := by
    rw [← coe_sum]
    exact Finset.sum_congr rfl fun j _ => by rw [hw, hvr, EReal.coe_mul]
  rw [hl, ← EReal.coe_mul, Finset.sum_mul, ← coe_sum]
  refine Finset.sum_congr rfl fun j _ => ?_
  rw [hw, hvr, ← EReal.coe_mul, ← EReal.coe_mul]
  congr 1
  ring

/-- The bit pattern of f32's −∞ denotes ⊥. -/
theorem ofBits_negInf : Ideal.ofBits .f32 0xFF800000#32 = ⊥ := by simp [Ideal.ofBits, Ideal.ieee]

/-- The bit pattern of f32's 1.0 denotes 1. -/
theorem ofBits_one : Ideal.ofBits .f32 0x3F800000#32 = 1 := by
  simp [Ideal.ofBits, Ideal.ieee, -EReal.coe_mul]; norm_num

end Cert.Attention

end
-- ==== Proof.Finite.lean ====
/-
  From the precondition to real numbers: when the printed predicate "every entry of each of the three
  inputs has absolute value below +∞" holds, every entry of every input is a real number (neither ⊤ nor ⊥).
-/
import proofs.«403850_j39676907881791_3_alg».proof.Pre_finite_inputs
import proofs.«403850_j39676907881791_3_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

open Idealize.ShloMosaic Idealize.ShloMosaic.ValueIdx

namespace Cert.Pre_finite_inputs.Finite

open Cert.Pre_finite_inputs

/-- The scalar shape has a single index. -/
private instance : Subsingleton S_.Idx := ⟨fun a b => funext fun d => d.elim0⟩

/-- The bit pattern of f32's +∞ denotes ⊤. -/
private theorem ofBits_posInf : Ideal.ofBits .f32 0x7F800000#32 = ⊤ := by simp [Ideal.ofBits, Ideal.ieee]

/-- An extended real whose absolute value max a (−a) lies strictly below ⊤ is a real number:
    at ⊥ the negation is ⊤, at ⊤ the value itself is ⊤, and both make the maximum ⊤. -/
private theorem real_of_abs_lt_top (a : EReal) (h : max a (-a) < ⊤) : ∃ r : ℝ, a = r := by
  induction a using EReal.rec with
  | bot => exact absurd h (by simp)
  | coe r => exact ⟨r, rfl⟩
  | top => exact absurd h (by simp)

/-- One input: if the conjunction over all indices of "|x i| < +∞" is true, every entry of x is real. -/
private theorem real_of_all [Cert.Pre_finite_inputs.Facts] (x : FVec Ideal S4x16x2048x128 .f32)
    (h : Host.reduce IntOp.andi
        (cmpf .olt (Host.absf x)
          (broadcastInDim S4x16x2048x128 ![] Facts.bcast_S_S4x16x2048x128 (constant (F := Ideal) S_ .f32 0x7F800000#32)))
        (constantI S_ 1 1#1) Facts.reducesTo_S4x16x2048x128_S_d0_1_2_3 Facts.h_S_ ValueIdx.ix0 = 1#1) :
    ∀ i, ∃ r : ℝ, x i = r := by
  intro i
  have hi := Host.reduce_andi_all _ _ _ _ _ h i
  -- the comparison at index i is the strict inequality max (x i) (−x i) < ⊤
  have hlt : max (x i) (-(x i)) < (⊤ : EReal) := by
    have hc : Ideal.cmp .olt (max (x i) (-(x i))) (Ideal.ofBits .f32 0x7F800000#32) = 1#1 := hi
    rw [ofBits_posInf] at hc
    unfold Ideal.cmp at hc
    by_contra hn
    simp [hn] at hc
  exact real_of_abs_lt_top _ hlt

/-- Under the precondition every entry of the three inputs is a real number. -/
theorem real_of_pre [Cert.Pre_finite_inputs.Facts] (x0 x1 x2 : FVec Ideal S4x16x2048x128 .f32)
    (h : Cert.Pre_finite_inputs.fn (F := Ideal) x0 x1 x2 = fun _ => 1#1) :
    (∀ i, ∃ r : ℝ, x0 i = r) ∧ (∀ i, ∃ r : ℝ, x1 i = r) ∧ (∀ i, ∃ r : ℝ, x2 i = r) := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨real_of_all x0 h0', real_of_all x1 h1, real_of_all x2 h2⟩

end Cert.Pre_finite_inputs.Finite

end
-- ==== Proof.RefValue.lean ====
/-
  The reference's result, read at one index over the extended reals: entry (b, h, r, c) is the attention
  output of query row (b, h, r), the softmax weights normalised first and then multiplied with the values.
  The scores are the batched matrix product over the feature axis times the constant 1; the row maximum is
  the host's max-reduction from −∞, joined once more with −∞; the denominator is 0 plus the row sum.
-/
import proofs.«403850_j39676907881791_3_alg».proof.Proof.Gen.ReferenceIdeal.Read
import proofs.«403850_j39676907881791_3_alg».proof.Proof.Spec
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read

/-! ### Index equations

Each index function of the reference, at an index written by its coordinates, is the index of the
coordinates it selects: every coordinate computes. -/

/-- The left operand of the score product at (b, h, r, j), feature a, is read at (b, h, r, a). -/
private theorem lidx0 (b : Fin 4) (h : Fin 16) (r j : Fin 2048) (a : Fin 128) :
    lidx_main_v0 (ix4 b h r j) a = ix4 b h r a :=
  funext fun e => Fin.ext (by match e with | ⟨0, _⟩ => rfl | ⟨1, _⟩ => rfl | ⟨2, _⟩ => rfl | ⟨3, _⟩ => rfl)

/-- The right operand of the score product at (b, h, r, j), feature a, is read at (b, h, j, a). -/
private theorem ridx0 (b : Fin 4) (h : Fin 16) (r j : Fin 2048) (a : Fin 128) :
    ridx_main_v0 (ix4 b h r j) a = ix4 b h j a :=
  funext fun e => Fin.ext (by match e with | ⟨0, _⟩ => rfl | ⟨1, _⟩ => rfl | ⟨2, _⟩ => rfl | ⟨3, _⟩ => rfl)

/-- The row maximum broadcast back over the keys is read at the row (b, h, r). -/
private theorem idx67 (b : Fin 4) (h : Fin 16) (r j : Fin 2048) :
    idx_main_v6 (idx_main_v7 (ix4 b h r j)) = ix3 b h r :=
  funext fun e => Fin.ext (by match e with | ⟨0, _⟩ => rfl | ⟨1, _⟩ => rfl | ⟨2, _⟩ => rfl)

/-- The denominator broadcast back over the keys is read at the row (b, h, r). -/
private theorem idx1112 (b : Fin 4) (h : Fin 16) (r j : Fin 2048) :
    idx_main_v11 (idx_main_v12 (ix4 b h r j)) = ix3 b h r :=
  funext fun e => Fin.ext (by match e with | ⟨0, _⟩ => rfl | ⟨1, _⟩ => rfl | ⟨2, _⟩ => rfl)

/-- The row sum at (b, h, r) reads key j at (b, h, r, j). -/
private theorem idx10 (b : Fin 4) (h : Fin 16) (r j : Fin 2048) :
    idx_main_v10 (ix3 b h r) j = ix4 b h r j :=
  funext fun e => Fin.ext (by match e with | ⟨0, _⟩ => rfl | ⟨1, _⟩ => rfl | ⟨2, _⟩ => rfl | ⟨3, _⟩ => rfl)

/-- The left operand of the value product at (b, h, r, c), key j, is read at (b, h, r, j). -/
private theorem lidx14 (b : Fin 4) (h : Fin 16) (r : Fin 2048) (c : Fin 128) (j : Fin 2048) :
    lidx_main_v14 (ix4 b h r c) j = ix4 b h r j :=
  funext fun e => Fin.ext (by match e with | ⟨0, _⟩ => rfl | ⟨1, _⟩ => rfl | ⟨2, _⟩ => rfl | ⟨3, _⟩ => rfl)

/-- The right operand of the value product at (b, h, r, c), key j, is read at (b, h, j, c). -/
private theorem ridx14 (b : Fin 4) (h : Fin 16) (r : Fin 2048) (c : Fin 128) (j : Fin 2048) :
    ridx_main_v14 (ix4 b h r c) j = ix4 b h j c :=
  funext fun e => Fin.ext (by match e with | ⟨0, _⟩ => rfl | ⟨1, _⟩ => rfl | ⟨2, _⟩ => rfl | ⟨3, _⟩ => rfl)

/-- The row (b, h, r) with key coordinate k put back on the last axis is (b, h, r, k). -/
private theorem lift3 (hR : S4x16x2048x2048.Reduces [3] S4x16x2048) (b : Fin 4) (h : Fin 16) (r : Fin 2048)
    (k : Fin (S4x16x2048x2048.size 3)) :
    hR.lift (ix3 b h r) k = ix4 b h r (⟨k.val, k.isLt⟩ : Fin 2048) :=
  funext fun e => Fin.ext (by match e with | ⟨0, _⟩ => rfl | ⟨1, _⟩ => rfl | ⟨2, _⟩ => rfl | ⟨3, _⟩ => rfl)

/-! ### The stages at an index -/

/-- The scaled scores at (b, h, r, j): the inner product of query row (b, h, r) with key row (b, h, j), times 1. -/
private theorem score_apply (Q K : (⟨S4x16x2048x128, .f32⟩ : BufTy).Contents (Elt Ideal)) (b : Fin 4) (h : Fin 16) (r j : Fin 2048) :
    val_main_v2 (F := Ideal) Q K (ix4 b h r j)
      = Cert.Attention.score (fun a : Fin 128 => Q (ix4 b h r a)) (fun (j : Fin 2048) (a : Fin 128) => K (ix4 b h j a)) j := by
  rw [val_main_v2_apply, val_main_v0_apply, val_main_v1_apply, val_main_cst_apply]
  simp only [Ideal.mulf_def, Ideal.ofBits_def, Cert.Attention.ofBits_one, mul_one, lidx0, ridx0]
  rfl

/-- The row maximum at (b, h, r): the fold of max from −∞ over the keys' scores, joined once more with −∞. -/
private theorem rowMax_apply (Q K : (⟨S4x16x2048x128, .f32⟩ : BufTy).Contents (Elt Ideal)) (b : Fin 4) (h : Fin 16) (r : Fin 2048) :
    val_main_v5 (F := Ideal) Q K (ix3 b h r)
      = Cert.Attention.rowMax (fun a : Fin 128 => Q (ix4 b h r a)) (fun (j : Fin 2048) (a : Fin 128) => K (ix4 b h j a)) := by
  have hR : S4x16x2048x2048.Reduces [3] S4x16x2048 := by decide
  rw [val_main_v5_apply, val_main_v4_apply, val_main_cst_1_apply]
  unfold val_main_v3
  rw [Host.reduce_eq_fold_single FloatOps.maximumf _ _ reducesTo_S4x16x2048x2048_S4x16x2048_d3 hR h_S_, val_main_cst_0_apply]
  have hf : (val_main_v2 (F := Ideal) Q K ∘ hR.lift (ix3 b h r))
      = Cert.Attention.score (fun a : Fin 128 => Q (ix4 b h r a)) (fun (j : Fin 2048) (a : Fin 128) => K (ix4 b h j a)) :=
    funext fun k => by
      show val_main_v2 (F := Ideal) Q K (hR.lift (ix3 b h r) k) = _
      rw [lift3, score_apply]
      rfl
  rw [hf]
  show max (Ideal.ofBits .f32 0xFF800000#32)
      (Finset.fold max (Ideal.ofBits .f32 0xFF800000#32) (Cert.Attention.score _ _) (Finset.univ : Finset (Fin 2048))) = _
  rw [Cert.Attention.ofBits_negInf, max_eq_right bot_le]
  rfl

/-- The unnormalised weight at (b, h, r, j): exp of the score less the row maximum. -/
private theorem weight_apply (Q K : (⟨S4x16x2048x128, .f32⟩ : BufTy).Contents (Elt Ideal)) (b : Fin 4) (h : Fin 16) (r j : Fin 2048) :
    val_main_v9 (F := Ideal) Q K (ix4 b h r j)
      = Cert.Attention.weight (fun a : Fin 128 => Q (ix4 b h r a)) (fun (j : Fin 2048) (a : Fin 128) => K (ix4 b h j a)) j := by
  rw [val_main_v9_apply, val_main_v8_apply, val_main_v7_apply, val_main_v6_apply, idx67, score_apply, rowMax_apply]
  simp only [Ideal.hostUnary_exp_def, Ideal.subf_def]
  rfl

/-- The denominator at (b, h, r): 0 plus the sum of the row's weights. -/
private theorem denom_apply (Q K : (⟨S4x16x2048x128, .f32⟩ : BufTy).Contents (Elt Ideal)) (b : Fin 4) (h : Fin 16) (r : Fin 2048) :
    val_main_v10 (F := Ideal) Q K (ix3 b h r)
      = Cert.Attention.denom (fun a : Fin 128 => Q (ix4 b h r a)) (fun (j : Fin 2048) (a : Fin 128) => K (ix4 b h j a)) := by
  rw [val_main_v10_apply, val_main_cst_2_apply]
  simp only [Ideal.ofBits_def, Ideal.ofBits_zero_f32, zero_add, idx10, weight_apply]
  rfl

/-- The reference's result at (b, h, r, c) is that query row's attention output, normalised first. -/
theorem result_apply (Q K V : (⟨S4x16x2048x128, .f32⟩ : BufTy).Contents (Elt Ideal)) (b : Fin 4) (h : Fin 16) (r : Fin 2048) (c : Fin 128) :
    val_main_v14 (F := Ideal) Q K V (ix4 b h r c)
      = Cert.Attention.normFirst (fun a : Fin 128 => Q (ix4 b h r a)) (fun (j : Fin 2048) (a : Fin 128) => K (ix4 b h j a))
          (fun (j : Fin 2048) (c' : Fin 128) => V (ix4 b h j c')) c := by
  rw [val_main_v14_apply]
  unfold Cert.Attention.normFirst
  refine Finset.sum_congr rfl fun j _ => ?_
  rw [lidx14, ridx14, val_main_v13_apply, val_main_v12_apply, val_main_v11_apply, idx1112, weight_apply, denom_apply]
  rfl

end Cert.ReferenceIdeal.RefValue

end
-- ==== Proof.AttnArray.lean ====
/-
  Attention over [64, 2048, 128] arrays (64 = 4·16 batch·head slices), and its reading through the two reshapes
  between [4, 16, 2048, 128] and [64, 2048, 128]: a reshape keeps the row-major position, so entry (b, h, r, c)
  of the 4-axis array is entry (16·b + h, r, c) of the 3-axis one, and the attention output of the reshaped
  arrays, reshaped back, is at (b, h, r, c) the output of query row (b, h, r) against the keys and values of (b, h).
-/
import proofs.«403850_j39676907881791_3_alg».proof.KernelIdeal
import proofs.«403850_j39676907881791_3_alg».proof.Proof.Spec
import Idealize.ShloMosaic.Lib.Pipeline.Value
import Idealize.ShloMosaic.Lib.ValueIdx

noncomputable section

open Idealize.ShloMosaic Idealize.ShloMosaic.ValueIdx

namespace Cert.KernelIdeal.AttnArray

open Cert.KernelIdeal

/-- Attention over [64, 2048, 128] arrays: entry (s, r, c) is the output of query row r of slice s against the
    keys and values of slice s, normalised after the product with the values. -/
def attn3 (Q K V : S64x2048x128.Idx → EReal) : S64x2048x128.Idx → EReal := fun i =>
  Cert.Attention.normLast (fun a : Fin 128 => Q (ix3 (i 0 : Fin 64) (i 1 : Fin 2048) a))
    (fun (j : Fin 2048) (a : Fin 128) => K (ix3 (i 0 : Fin 64) j a))
    (fun (j : Fin 2048) (c' : Fin 128) => V (ix3 (i 0 : Fin 64) j c')) (i 2 : Fin 128)

/-- The slice of batch b and head h among the 64 = 4·16 slices. -/
private def sl (b : Fin 4) (h : Fin 16) : Fin 64 := ⟨16 * b.val + h.val, by omega⟩

/-- The reshape [4, 16, 2048, 128] → [64, 2048, 128] at (16·b + h, r, a) reads the operand at (b, h, r, a):
    both have row-major position ((16·b + h)·2048 + r)·128 + a. -/
private theorem down {α : Type} (X : S4x16x2048x128.Idx → α) (hc : S4x16x2048x128.ShapeCasts S64x2048x128)
    (b : Fin 4) (h : Fin 16) (r : Fin 2048) (a : Fin 128) :
    shapeCast S64x2048x128 X hc (ix3 (sl b h) r a) = X (ix4 b h r a) :=
  shapeCast_apply X hc _ _ (by
    rw [Shape.rowMajor_val_four, Shape.rowMajor_val_three]
    show ((b.val * 16 + h.val) * 2048 + r.val) * 128 + a.val = ((16 * b.val + h.val) * 2048 + r.val) * 128 + a.val
    omega)

/-- The reshape back [64, 2048, 128] → [4, 16, 2048, 128] at (b, h, r, c) reads the operand at (16·b + h, r, c). -/
private theorem up {α : Type} (Y : S64x2048x128.Idx → α) (hc : S64x2048x128.ShapeCasts S4x16x2048x128)
    (b : Fin 4) (h : Fin 16) (r : Fin 2048) (c : Fin 128) :
    shapeCast S4x16x2048x128 Y hc (ix4 b h r c) = Y (ix3 (sl b h) r c) :=
  shapeCast_apply Y hc _ _ (by
    rw [Shape.rowMajor_val_four, Shape.rowMajor_val_three]
    show ((16 * b.val + h.val) * 2048 + r.val) * 128 + c.val = ((b.val * 16 + h.val) * 2048 + r.val) * 128 + c.val
    omega)

/-- Through the reshapes: the output of the reshaped arrays, reshaped back, at (b, h, r, c). -/
theorem reshape_attn3 [Cert.KernelIdeal.Facts] (Q K V : S4x16x2048x128.Idx → EReal) (b : Fin 4) (h : Fin 16) (r : Fin 2048) (c : Fin 128) :
    shapeCast S4x16x2048x128
        (attn3 (shapeCast S64x2048x128 Q Facts₀.shapeCasts_S4x16x2048x128_S64x2048x128)
          (shapeCast S64x2048x128 K Facts₀.shapeCasts_S4x16x2048x128_S64x2048x128)
          (shapeCast S64x2048x128 V Facts₀.shapeCasts_S4x16x2048x128_S64x2048x128))
        Facts₀.shapeCasts_S64x2048x128_S4x16x2048x128 (ix4 b h r c)
      = Cert.Attention.normLast (fun a : Fin 128 => Q (ix4 b h r a)) (fun (j : Fin 2048) (a : Fin 128) => K (ix4 b h j a))
          (fun (j : Fin 2048) (c' : Fin 128) => V (ix4 b h j c')) c := by
  rw [up]
  unfold attn3
  -- the coordinates of (16·b + h, r, c) are read off, and each row function is read through the first reshape
  show Cert.Attention.normLast
      (fun a : Fin 128 => shapeCast S64x2048x128 Q Facts₀.shapeCasts_S4x16x2048x128_S64x2048x128 (ix3 (sl b h) r a))
      (fun (j : Fin 2048) (a : Fin 128) => shapeCast S64x2048x128 K Facts₀.shapeCasts_S4x16x2048x128_S64x2048x128 (ix3 (sl b h) j a))
      (fun (j : Fin 2048) (c' : Fin 128) => shapeCast S64x2048x128 V Facts₀.shapeCasts_S4x16x2048x128_S64x2048x128 (ix3 (sl b h) j c')) c
    = _
  simp only [down]

end Cert.KernelIdeal.AttnArray

end
-- ==== Proof.KernelPieces.lean ====
/-
  What each control case of the kernel body leaves in its buffers, as the body's stored values.

  At the first query tile of a (batch, head) slice the body fills the two scratch buffers from the key and
  value blocks and then computes the output from the query block and the scratch it has just filled; at
  the other tile it stores nothing into the scratch and computes the output from the query block and the
  scratch as the previous point left it.  Every store covers its whole buffer, and every load reads a
  whole buffer, so each buffer ends at exactly one stored value of what was loaded.
-/
import proofs.«403850_j39676907881791_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile: the key scratch ends at the key block's stored value. -/
theorem scrK_A (c : Dev nD) (i : grid0.Coords) (arg2 : Memref sig .tc .vmem S1x1024x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x1024x128 .f32) (harg5 : arg5.IsWhole) (arg6 : Memref sig .tc .vmem S2048x128 .bf16) (harg6 : arg6.IsWhole) (arg7 : Memref sig .tc .vmem S2048x128 .bf16) (harg7 : arg7.IsWhole) (hc0 : cond0_0 i)
    (x0 : Vec F S1x1024x128 .f32) (x1 : Vec F S1x2048x128 .f32) (x2 : Vec F S1x2048x128 .f32) :
    sout0_A_0 c i arg2 harg2 arg3 harg3 arg4 harg4 arg5 harg5 arg6 harg6 arg7 harg7 hc0 x0 x1 x2 = k0_pay1 x1 := by
  unfold sout0_A_0
  rw [View.read_writes_eq_canon _ _ _ (scover0_A_0 c i arg2 harg2 arg3 harg3 arg4 harg4 arg5 harg5 arg6 harg6 arg7 harg7 hc0 x0 x1 x2)]
  unfold kernelRun0_A
  dsimp only
  sl_unfold_words
  rw [View.canon_unit_zero hz2]
  simp only [View.readAt_eq_ld, harg3.read_unread, View.ld_unit_zero (S := S1x2048x128) hz3]

/-- First tile: the value scratch ends at the value block's stored value. -/
theorem scrV_A (c : Dev nD) (i : grid0.Coords) (arg2 : Memref sig .tc .vmem S1x1024x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x1024x128 .f32) (harg5 : arg5.IsWhole) (arg6 : Memref sig .tc .vmem S2048x128 .bf16) (harg6 : arg6.IsWhole) (arg7 : Memref sig .tc .vmem S2048x128 .bf16) (harg7 : arg7.IsWhole) (hc0 : cond0_0 i)
    (x0 : Vec F S1x1024x128 .f32) (x1 : Vec F S1x2048x128 .f32) (x2 : Vec F S1x2048x128 .f32) :
    sout0_A_1 c i arg2 harg2 arg3 harg3 arg4 harg4 arg5 harg5 arg6 harg6 arg7 harg7 hc0 x0 x1 x2 = k0_pay2 x2 := by
  unfold sout0_A_1
  rw [View.read_writes_eq_canon _ _ _ (scover0_A_1 c i arg2 harg2 arg3 harg3 arg4 harg4 arg5 harg5 arg6 harg6 arg7 harg7 hc0 x0 x1 x2)]
  unfold kernelRun0_A
  dsimp only
  sl_unfold_words
  rw [View.canon_unit_zero hz2]
  simp only [View.readAt_eq_ld, harg4.read_unread, View.ld_unit_zero (S := S1x2048x128) hz3]

/-- First tile: the output ends at the output value of the query block and the scratch just filled. -/
theorem out_A (c : Dev nD) (i : grid0.Coords) (arg2 : Memref sig .tc .vmem S1x1024x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x1024x128 .f32) (harg5 : arg5.IsWhole) (arg6 : Memref sig .tc .vmem S2048x128 .bf16) (harg6 : arg6.IsWhole) (arg7 : Memref sig .tc .vmem S2048x128 .bf16) (harg7 : arg7.IsWhole) (hc0 : cond0_0 i)
    (x0 : Vec F S1x1024x128 .f32) (x1 : Vec F S1x2048x128 .f32) (x2 : Vec F S1x2048x128 .f32) :
    out0_A_3 c i arg2 harg2 arg3 harg3 arg4 harg4 arg5 harg5 arg6 harg6 arg7 harg7 hc0 x0 x1 x2 = k0_pay3 x0 (k0_pay1 x1) (k0_pay2 x2) := by
  unfold out0_A_3
  rw [View.read_writes_eq_canon _ _ _ (cover0_A_3 c i arg2 harg2 arg3 harg3 arg4 harg4 arg5 harg5 arg6 harg6 arg7 harg7 hc0 x0 x1 x2)]
  unfold kernelRun0_A
  dsimp only
  sl_unfold_words
  rw [View.canon_unit_zero hz3]
  simp only [View.readAt_eq_ld, harg2.read_unread, harg3.read_unread, harg4.read_unread,
    View.ld_unit_zero (S := S1x1024x128) hz3, View.ld_unit_zero (S := S1x2048x128) hz3,
    View.readCov_unit_zero (S := S2048x128) _ hz2]

/-- Other tile: the output ends at the output value of the query block and the carried scratch. -/
theorem out_B (c : Dev nD) (i : grid0.Coords) (arg2 : Memref sig .tc .vmem S1x1024x128 .f32) (harg2 : arg2.IsWhole) (arg3 : Memref sig .tc .vmem S1x2048x128 .f32) (harg3 : arg3.IsWhole) (arg4 : Memref sig .tc .vmem S1x2048x128 .f32) (harg4 : arg4.IsWhole) (arg5 : Memref sig .tc .vmem S1x1024x128 .f32) (harg5 : arg5.IsWhole) (arg6 : Memref sig .tc .vmem S2048x128 .bf16) (harg6 : arg6.IsWhole) (arg7 : Memref sig .tc .vmem S2048x128 .bf16) (harg7 : arg7.IsWhole) (hc0 : ¬cond0_0 i)
    (x0 : Vec F S1x1024x128 .f32) (x1 : Vec F S1x2048x128 .f32) (x2 : Vec F S1x2048x128 .f32) (xs0 xs1 : Vec F S2048x128 .bf16) :
    out0_B_3 c i arg2 harg2 arg3 harg3 arg4 harg4 arg5 harg5 arg6 harg6 arg7 harg7 hc0 x0 x1 x2 xs0 xs1 = k0_pay3 x0 xs0 xs1 := by
  unfold out0_B_3
  rw [View.read_writes_eq_canon _ _ _ (cover0_B_3 c i arg2 harg2 arg3 harg3 arg4 harg4 arg5 harg5 arg6 harg6 arg7 harg7 hc0 x0 x1 x2 xs0 xs1)]
  unfold kernelRun0_B
  dsimp only
  sl_unfold_words
  rw [View.canon_unit_zero hz3]
  simp only [View.readAt_eq_ld, harg2.read_unread, harg6.read_unread, harg7.read_unread,
    View.ld_unit_zero (S := S1x1024x128) hz3, View.ld_unit_zero (S := S2048x128) hz2]

end Cert.KernelIdeal.Pieces

end
-- ==== Proof.KernelPayload.lean ====
/-
  The kernel body's three stored values, read at one index over the extended reals.

  The two scratch fills store the key block and the value block unchanged (a change of float format is
  the identity on the extended reals, and dropping the block's leading unit axis moves no entry).  The
  output store holds, at row r and column c of the query tile, the attention output of that row
  normalised after the product with the values: scores by the first matrix product (contracting the
  feature axis of both operands), the row maximum by the lane reduction from −∞, the weights by exp,
  the denominator by the lane sum, the second matrix product against the values, and one division.
-/
import proofs.«403850_j39676907881791_3_alg».proof.Proof.Gen.KernelIdeal.Skeleton
import proofs.«403850_j39676907881791_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen

/-- The key scratch fill stores the key block entry for entry. -/
theorem pay1_apply (x : Vec Ideal S1x2048x128 .f32) (j : Fin 2048) (a : Fin 128) :
    k0_pay1 (F := Ideal) x (ix2 j a) = x (ix3 (0 : Fin 1) j a) := by
  unfold k0_pay1
  rw [shapeCast_self, truncf_apply]
  exact shapeCast_1ab_ab_apply x _ j a

/-- The value scratch fill stores the value block entry for entry. -/
theorem pay2_apply (x : Vec Ideal S1x2048x128 .f32) (j : Fin 2048) (a : Fin 128) :
    k0_pay2 (F := Ideal) x (ix2 j a) = x (ix3 (0 : Fin 1) j a) := by
  unfold k0_pay2
  rw [shapeCast_self, truncf_apply]
  exact shapeCast_1ab_ab_apply x _ j a

/-! ## The two column forms a kept reduced axis needs

A reduced vector of length `a` is viewed as the column `[a, 1]` and the column is then repeated along the lanes:
both read the vector's entry at the row. -/

/-- A vector `[a]` cast to the column `[a, 1]` reads, at `(i, u)`, the operand at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The lane reductions of one row -/

/-- Over row `r`, the source index with lane `j` inserted is `(r, j)`. -/
private theorem lift_row (h : S1024x2048.Reduces [1] S1024) (r : Fin 1024) (j : Fin 2048) :
    h.lift (ix1 r) j = ix2 r j := by
  funext c
  refine Fin.ext ?_
  match c with
  | ⟨0, _⟩ => rfl
  | ⟨1, _⟩ => rfl

/-- The lane sum at row `r` is the sum of the row's entries. -/
private theorem laneSum_apply (s : FVec Ideal S1024x2048 .f32) (h : S1024x2048.Reduces [1] S1024) (hφ : FKind.Formats .f32)
    (hacc : (0x00000000#32 : BitVec 32) = FKind.add.neutral .f32 hφ) (r : Fin 1024) :
    multiReduction (F := Ideal) .add [1] S1024 s 0x00000000#32 h hφ hacc (ix1 r) = ∑ j : Fin 2048, s (ix2 r j) := by
  refine (Ideal.multiReduction_add_single s _ h hφ hacc (ix1 r)).trans ?_
  exact Finset.sum_congr rfl fun j _ => congrArg s (lift_row h r j)

/-- The lane maximum from −∞ at row `r` is the fold of `max` from `⊥` over the row's entries. -/
private theorem laneMax_apply (s : FVec Ideal S1024x2048 .f32) (h : S1024x2048.Reduces [1] S1024) (hφ : FKind.Formats .f32)
    (hacc : (0xFF800000#32 : BitVec 32) = FKind.maximumf.neutral .f32 hφ) (r : Fin 1024) :
    multiReduction (F := Ideal) .maximumf [1] S1024 s 0xFF800000#32 h hφ hacc (ix1 r)
      = (Finset.univ : Finset (Fin 2048)).fold max ⊥ (fun j => s (ix2 r j)) := by
  refine (Ideal.multiReduction_maximumf_single s _ h hφ hacc (ix1 r)).trans ?_
  show (Finset.univ : Finset (Fin 2048)).fold max (Ideal.ofBits .f32 0xFF800000#32) (fun j => s (h.lift (ix1 r) j)) = _
  rw [Cert.Attention.ofBits_negInf]
  exact congrArg (fun f => (Finset.univ : Finset (Fin 2048)).fold max ⊥ f) (funext fun j => congrArg s (lift_row h r j))

/-! ## The first matrix product: query rows against key rows, both contracted along the feature axis -/

theorem lhs_scores_0 (i : S1024x2048.Idx) (q : dot_S1024x128_S2048x128_S1024x2048_1_1_0_0_n_n.contr.Idx) :
    (dot_S1024x128_S2048x128_S1024x2048_1_1_0_0_n_n.lhsIdx i q 0).val = (i 0).val := by
  unfold DotDims.lhsIdx
  rw [dif_neg (show ¬(0 : Fin S1024x128.rank) ∈ dot_S1024x128_S2048x128_S1024x2048_1_1_0_0_n_n.lhsBatch by decide), dif_pos (show (0 : Fin S1024x128.rank) ∈ dot_S1024x128_S2048x128_S1024x2048_1_1_0_0_n_n.lhsNonContracting by decide)]
  rfl
theorem lhs_scores_1 (i : S1024x2048.Idx) (q : dot_S1024x128_S2048x128_S1024x2048_1_1_0_0_n_n.contr.Idx) :
    (dot_S1024x128_S2048x128_S1024x2048_1_1_0_0_n_n.lhsIdx i q 1).val = (q ⟨0, by decide⟩).val :=
  dot_S1024x128_S2048x128_S1024x2048_1_1_0_0_n_n.lhsIdx_val_of_single rfl i q
theorem rhs_scores_0 (i : S1024x2048.Idx) (q : dot_S1024x128_S2048x128_S1024x2048_1_1_0_0_n_n.contr.Idx) :
    (dot_S1024x128_S2048x128_S1024x2048_1_1_0_0_n_n.rhsIdx i q 0).val = (i 1).val := by
  unfold DotDims.rhsIdx
  rw [dif_neg (show ¬(0 : Fin S2048x128.rank) ∈ dot_S1024x128_S2048x128_S1024x2048_1_1_0_0_n_n.rhsBatch by decide), dif_pos (show (0 : Fin S2048x128.rank) ∈ dot_S1024x128_S2048x128_S1024x2048_1_1_0_0_n_n.rhsNonContracting by decide)]
  rfl
theorem rhs_scores_1 (i : S1024x2048.Idx) (q : dot_S1024x128_S2048x128_S1024x2048_1_1_0_0_n_n.contr.Idx) :
    (dot_S1024x128_S2048x128_S1024x2048_1_1_0_0_n_n.rhsIdx i q 1).val = (q ⟨0, by decide⟩).val :=
  dot_S1024x128_S2048x128_S1024x2048_1_1_0_0_n_n.rhsIdx_val_of_single rfl i q

/-- Into the zero splat, the first product at `(r, j)` is the inner product of query row `r` and key row `j`. -/
private theorem matmul_scores_apply (qv : FVec Ideal S1024x128 .bf16) (kv : FVec Ideal S2048x128 .bf16) (r : Fin 1024) (j : Fin 2048) :
    matmul dot_S1024x128_S2048x128_S1024x2048_1_1_0_0_n_n none qv kv (constant (F := Ideal) S1024x2048 .f32 0x00000000#32) (ix2 r j)
      = ∑ a : Fin 128, qv (ix2 r a) * kv (ix2 j a) := by
  simp only [matmul]
  rw [Ideal.matmul_constant_zero_apply, ← Equiv.sum_comp (contrEquiv1 dot_S1024x128_S2048x128_S1024x2048_1_1_0_0_n_n 128 rfl rfl).symm]
  refine Finset.sum_congr rfl fun k _ => ?_
  have hk := contrEquiv1_symm_val dot_S1024x128_S2048x128_S1024x2048_1_1_0_0_n_n 128 rfl rfl k
  have el : dot_S1024x128_S2048x128_S1024x2048_1_1_0_0_n_n.lhsIdx (ix2 r j) ((contrEquiv1 dot_S1024x128_S2048x128_S1024x2048_1_1_0_0_n_n 128 rfl rfl).symm k) = ix2 r k := funext fun a => Fin.ext (by
    match a with
    | ⟨0, _⟩ => exact lhs_scores_0 _ _
    | ⟨1, _⟩ => exact (lhs_scores_1 _ _).trans hk)
  have er : dot_S1024x128_S2048x128_S1024x2048_1_1_0_0_n_n.rhsIdx (ix2 r j) ((contrEquiv1 dot_S1024x128_S2048x128_S1024x2048_1_1_0_0_n_n 128 rfl rfl).symm k) = ix2 j k := funext fun a => Fin.ext (by
    match a with
    | ⟨0, _⟩ => exact rhs_scores_0 _ _
    | ⟨1, _⟩ => exact (rhs_scores_1 _ _).trans hk)
  rw [el, er]

/-! ## The second matrix product: weight rows against value columns, contracted along the keys -/

theorem lhs_out_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem lhs_out_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
theorem rhs_out_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
theorem rhs_out_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- Into the zero splat, the second product at `(r, c)` is the sum over the keys of row `r`'s entry times the value at `(j, c)`. -/
private theorem matmul_out_apply (pv : FVec Ideal S1024x2048 .bf16) (vv : FVec Ideal S2048x128 .bf16) (r : Fin 1024) (c : Fin 128) :
    matmul dot_S1024x2048_S2048x128_S1024x128_1_0_0_1_n_n none pv vv (constant (F := Ideal) S1024x128 .f32 0x00000000#32) (ix2 r c)
      = ∑ j : Fin 2048, pv (ix2 r j) * vv (ix2 j c) := by
  simp only [matmul]
  rw [Ideal.matmul_constant_zero_apply, ← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 r c) ((contrEquiv1 dot_S1024x2048_S2048x128_S1024x128_1_0_0_1_n_n 2048 rfl rfl).symm k) = ix2 r k := funext fun a => Fin.ext (by
    match a with
    | ⟨0, _⟩ => exact lhs_out_0 _ _
    | ⟨1, _⟩ => exact (lhs_out_1 _ _).trans hk)
  have er : dot_S1024x2048_S2048x128_S1024x128_1_0_0_1_n_n.rhsIdx (ix2 r c) ((contrEquiv1 dot_S1024x2048_S2048x128_S1024x128_1_0_0_1_n_n 2048 rfl rfl).symm k) = ix2 k c := funext fun a => Fin.ext (by
    match a with
    | ⟨0, _⟩ => exact (rhs_out_0 _ _).trans hk
    | ⟨1, _⟩ => exact rhs_out_1 _ _)
  rw [el, er]

/-! ## The output store's intermediate vectors, each read at an index

Scores, row maxima, weights, denominators and unnormalised outputs of the whole query tile, in the order the body
computes them; the stored value is their quotient with a leading unit axis added. -/

/-- The scores of the tile: the first product into the zero splat. -/
private def scoresVec (x : Vec Ideal S1x1024x128 .f32) (ks : Vec Ideal S2048x128 .bf16) : FVec Ideal S1024x2048 .f32 :=
  matmul (φ₂ := .bf16) dot_S1024x128_S2048x128_S1024x2048_1_1_0_0_n_n none
    (truncf .bf16 (shapeCast S1024x128 x shapeCasts_S1x1024x128_S1024x128) bitsLt_bf16_f32) ks
    (constant S1024x2048 .f32 0x00000000#32)

/-- The row maxima: the lane maximum of the scores from −∞. -/
private def rowMaxVec (x : Vec Ideal S1x1024x128 .f32) (ks : Vec Ideal S2048x128 .bf16) : FVec Ideal S1024 .f32 :=
  multiReduction .maximumf [1] S1024 (scoresVec x ks) 0xFF800000#32 reduces_S1024x2048_S1024 (.inl rfl) rfl

/-- The unnormalised weights: exp of the scores less their row maximum. -/
private def weightsVec (x : Vec Ideal S1x1024x128 .f32) (ks : Vec Ideal S2048x128 .bf16) : FVec Ideal S1024x2048 .f32 :=
  exp (subf (scoresVec x ks)
    (broadcastTo S1024x2048 (shapeCast S1024x1 (rowMaxVec x ks) shapeCasts_S1024_S1024x1) broadcasts_S1024x1_S1024x2048))

/-- The row denominators: the lane sum of the weights. -/
private def denomVec (x : Vec Ideal S1x1024x128 .f32) (ks : Vec Ideal S2048x128 .bf16) : FVec Ideal S1024 .f32 :=
  multiReduction .add [1] S1024 (weightsVec x ks) 0x00000000#32 reduces_S1024x2048_S1024 (.inl rfl) rfl

/-- The unnormalised outputs: the second product into the zero splat. -/
private def outVec (x : Vec Ideal S1x1024x128 .f32) (ks vs : Vec Ideal S2048x128 .bf16) : FVec Ideal S1024x128 .f32 :=
  matmul (φ₂ := .bf16) dot_S1024x2048_S2048x128_S1024x128_1_0_0_1_n_n none (truncf .bf16 (weightsVec x ks) bitsLt_bf16_f32) vs
    (constant S1024x128 .f32 0x00000000#32)

/-- The stored value is the quotient of outputs by denominators, with the leading unit axis added. -/
private theorem pay3_eq (x : Vec Ideal S1x1024x128 .f32) (ks vs : Vec Ideal S2048x128 .bf16) :
    k0_pay3 (F := Ideal) x ks vs
      = shapeCast S1x1024x128 (divf (outVec x ks vs)
          (broadcastTo S1024x128 (shapeCast S1024x1 (denomVec x ks) shapeCasts_S1024_S1024x1) broadcasts_S1024x1_S1024x128))
          shapeCasts_S1024x128_S1x1024x128 := rfl

/-- The score vector at `(r, j)` is the score of key `j` against query row `r`. -/
private theorem scoresVec_apply (x : Vec Ideal S1x1024x128 .f32) (ks : Vec Ideal S2048x128 .bf16) (r : Fin 1024) (j : Fin 2048) :
    scoresVec x ks (ix2 r j)
      = Cert.Attention.score (fun a : Fin 128 => x (ix3 (0 : Fin 1) r a)) (fun (j : Fin 2048) (a : Fin 128) => ks (ix2 j a)) j := by
  unfold scoresVec Cert.Attention.score
  refine (matmul_scores_apply _ _ r j).trans ?_
  refine Finset.sum_congr rfl fun a _ => ?_
  rw [truncf_apply, shapeCast_1ab_ab_apply]

/-- The row-maximum vector at `r` is the largest score of query row `r`. -/
private theorem rowMaxVec_apply (x : Vec Ideal S1x1024x128 .f32) (ks : Vec Ideal S2048x128 .bf16) (r : Fin 1024) :
    rowMaxVec x ks (ix1 r)
      = Cert.Attention.rowMax (fun a : Fin 128 => x (ix3 (0 : Fin 1) r a)) (fun (j : Fin 2048) (a : Fin 128) => ks (ix2 j a)) := by
  unfold rowMaxVec Cert.Attention.rowMax
  refine (laneMax_apply _ _ _ _ r).trans ?_
  exact congrArg (fun f => (Finset.univ : Finset (Fin 2048)).fold max ⊥ f) (funext fun j => scoresVec_apply x ks r j)

/-- The weight vector at `(r, j)` is the unnormalised softmax weight of key `j` for query row `r`. -/
private theorem weightsVec_apply (x : Vec Ideal S1x1024x128 .f32) (ks : Vec Ideal S2048x128 .bf16) (r : Fin 1024) (j : Fin 2048) :
    weightsVec x ks (ix2 r j)
      = Cert.Attention.weight (fun a : Fin 128 => x (ix3 (0 : Fin 1) r a)) (fun (j : Fin 2048) (a : Fin 128) => ks (ix2 j a)) j := by
  unfold weightsVec Cert.Attention.weight
  show Ideal.exp (scoresVec x ks (ix2 r j)
    - broadcastTo S1024x2048 (shapeCast S1024x1 (rowMaxVec x ks) shapeCasts_S1024_S1024x1) broadcasts_S1024x1_S1024x2048 (ix2 r j)) = _
  rw [broadcastTo_a1_ab_apply, shapeCast_a_a1_apply, scoresVec_apply, rowMaxVec_apply]

/-- The denominator vector at `r` is the softmax denominator of query row `r`. -/
private theorem denomVec_apply (x : Vec Ideal S1x1024x128 .f32) (ks : Vec Ideal S2048x128 .bf16) (r : Fin 1024) :
    denomVec x ks (ix1 r)
      = Cert.Attention.denom (fun a : Fin 128 => x (ix3 (0 : Fin 1) r a)) (fun (j : Fin 2048) (a : Fin 128) => ks (ix2 j a)) := by
  unfold denomVec Cert.Attention.denom
  refine (laneSum_apply _ _ _ _ r).trans ?_
  exact Finset.sum_congr rfl fun j _ => weightsVec_apply x ks r j

/-- The unnormalised output at `(r, c)` is the weighted sum of the values' column `c`. -/
private theorem outVec_apply (x : Vec Ideal S1x1024x128 .f32) (ks vs : Vec Ideal S2048x128 .bf16) (r : Fin 1024) (c : Fin 128) :
    outVec x ks vs (ix2 r c)
      = ∑ j : Fin 2048, Cert.Attention.weight (fun a : Fin 128 => x (ix3 (0 : Fin 1) r a))
          (fun (j : Fin 2048) (a : Fin 128) => ks (ix2 j a)) j * vs (ix2 j c) := by
  unfold outVec
  refine (matmul_out_apply _ _ r c).trans ?_
  refine Finset.sum_congr rfl fun j _ => ?_
  rw [truncf_apply, weightsVec_apply]

/-- The output store at row `r`, column `c` of the query tile: the row's attention output, normalised last. -/
theorem pay3_apply (x : Vec Ideal S1x1024x128 .f32) (ks vs : Vec Ideal S2048x128 .bf16) (r : Fin 1024) (c : Fin 128) :
    k0_pay3 (F := Ideal) x ks vs (ix3 (0 : Fin 1) r c)
      = Cert.Attention.normLast (fun a : Fin 128 => x (ix3 (0 : Fin 1) r a)) (fun (j : Fin 2048) (a : Fin 128) => ks (ix2 j a))
          (fun (j : Fin 2048) (c' : Fin 128) => vs (ix2 j c')) c := by
  rw [pay3_eq]
  unfold Cert.Attention.normLast
  rw [shapeCast_ab_1ab_apply, divf_apply, broadcastTo_a1_ab_apply, shapeCast_a_a1_apply, outVec_apply, denomVec_apply]

end Cert.KernelIdeal.Payload

end
-- ==== Proof.KernelBlocks.lean ====
/-
  The kernel's grid, point by point, over the extended reals.

  The grid has 128 points; point t works on (batch·head) slice t / 2 and query tile t % 2 (1024 rows each).
  The query and output windows read and write rows (t % 2)·1024 … of slice t / 2; the key and value windows
  read the whole slice t / 2 whatever the tile.  At an even point the body fills the scratch with the slice's
  keys and values; at an odd point it keeps what the even point before it (same slice) left.  So after every
  point the scratch holds the keys and the values of the point's own slice (induction on the point), and the
  output block of point t is the attention output of the query rows of its tile against the keys and values
  of its slice: block t of ONE whole-array function of the three [64, 2048, 128] arrays.
-/
import proofs.«403850_j39676907881791_3_alg».proof.Proof.Gen.KernelIdeal.Frame
import proofs.«403850_j39676907881791_3_alg».proof.Proof.KernelPieces
import proofs.«403850_j39676907881791_3_alg».proof.Proof.KernelPayload
import proofs.«403850_j39676907881791_3_alg».proof.Proof.Spec
import proofs.«403850_j39676907881791_3_alg».proof.Proof.AttnArray
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.AttnArray

variable (m : (ℓ : Loc nD τ sig) → Buf (Elt Ideal) ℓ)

/-- The three arrays as the region finds them. -/
abbrev qarr (c : Dev nD) : S64x2048x128.Idx → EReal := V m c main_v0
abbrev karr (c : Dev nD) : S64x2048x128.Idx → EReal := V m c main_v1
abbrev varr (c : Dev nD) : S64x2048x128.Idx → EReal := V m c main_v2

/-- The slice a point works on, and the array row of row `r` of its query tile. -/
def slice (t : Fin cfg0.N) : Fin 64 := ⟨t.val / 2, by have := t.isLt; have : cfg0.N = 128 := N_0; omega⟩
def qrow (t : Fin cfg0.N) (r : Fin 1024) : Fin 2048 := ⟨(t.val % 2) * 1024 + r.val, by have := r.isLt; omega⟩

/-- The printed index maps, decided over the grid: slice t / 2 on the leading axis; tile t % 2 on the row axis
    of the query and output windows, 0 on the row axis of the key and value windows; 0 on the feature axis. -/
theorem idx_facts : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = 0 ∧ win0_1.index t (2 : Fin 3) = 0
    ∧ win0_2.index t (0 : Fin 3) = t.val / 2 ∧ win0_2.index t (1 : Fin 3) = 0 ∧ win0_2.index t (2 : Fin 3) = 0
    ∧ win0_3.index t (0 : Fin 3) = t.val / 2 ∧ win0_3.index t (1 : Fin 3) = t.val % 2 ∧ win0_3.index t (2 : Fin 3) = 0 :=
  (by decide +kernel : ∀ t : Fin grid0.N, _)

/-- The query block of point t at (0, r, a) is the query array at (slice, tile row, a). -/
theorem qblk_apply (c : Dev nD) (t : Fin cfg0.N) (r : Fin 1024) (a : Fin 128) :
    (iblk m c 0 t : S1x1024x128.Idx → EReal) (ix3 (0 : Fin 1) r a) = qarr m c (ix3 (slice t) (qrow t r) a) := by
  obtain ⟨e0, e1, e2, -⟩ := idx_facts t
  unfold iblk
  rw [View.read_apply]
  show V m c main_v0 _ = V m c main_v0 _
  congr 1
  funext ax
  apply Fin.ext
  match ax with
  | ⟨0, _⟩ => show win0_0.index t (0 : Fin 3) * 1 + 1 * 0 = t.val / 2; omega
  | ⟨1, _⟩ => show win0_0.index t (1 : Fin 3) * 1024 + 1 * r.val = (t.val % 2) * 1024 + r.val; omega
  | ⟨2, _⟩ => show win0_0.index t (2 : Fin 3) * 128 + 1 * a.val = a.val; omega

/-- The key block of point t at (0, j, a) is the key array at (slice, j, a). -/
theorem kblk_apply (c : Dev nD) (t : Fin cfg0.N) (j : Fin 2048) (a : Fin 128) :
    (iblk m c 1 t : S1x2048x128.Idx → EReal) (ix3 (0 : Fin 1) j a) = karr m c (ix3 (slice t) j a) := by
  obtain ⟨-, -, -, e0, e1, e2, -⟩ := idx_facts t
  unfold iblk
  rw [View.read_apply]
  show V m c main_v1 _ = V m c main_v1 _
  congr 1
  funext ax
  apply Fin.ext
  match ax with
  | ⟨0, _⟩ => show win0_1.index t (0 : Fin 3) * 1 + 1 * 0 = t.val / 2; omega
  | ⟨1, _⟩ => show win0_1.index t (1 : Fin 3) * 2048 + 1 * j.val = j.val; omega
  | ⟨2, _⟩ => show win0_1.index t (2 : Fin 3) * 128 + 1 * a.val = a.val; omega

/-- The value block of point t at (0, j, a) is the value array at (slice, j, a). -/
theorem vblk_apply (c : Dev nD) (t : Fin cfg0.N) (j : Fin 2048) (a : Fin 128) :
    (iblk m c 2 t : S1x2048x128.Idx → EReal) (ix3 (0 : Fin 1) j a) = varr m c (ix3 (slice t) j a) := by
  obtain ⟨-, -, -, -, -, -, e0, e1, e2, -⟩ := idx_facts t
  unfold iblk
  rw [View.read_apply]
  show V m c main_v2 _ = V m c main_v2 _
  congr 1
  funext ax
  apply Fin.ext
  match ax with
  | ⟨0, _⟩ => show win0_2.index t (0 : Fin 3) * 1 + 1 * 0 = t.val / 2; omega
  | ⟨1, _⟩ => show win0_2.index t (1 : Fin 3) * 2048 + 1 * j.val = j.val; omega
  | ⟨2, _⟩ => show win0_2.index t (2 : Fin 3) * 128 + 1 * a.val = a.val; omega

/-- After every point the scratch holds the keys and the values of the point's own slice: an even point fills
    it from its key and value blocks; an odd point keeps what the even point before it left, and that point
    works on the same slice. -/
theorem scratch_eq (c : Dev nD) (n : ℕ) : ∀ (h : n < cfg0.N),
    ((outsAt0 m c n h).2.1 : S2048x128.Idx → EReal) = (fun j => karr m c (ix3 (slice ⟨n, h⟩) (j 0 : Fin 2048) (j 1 : Fin 128)))
    ∧ ((outsAt0 m c n h).2.2 : S2048x128.Idx → EReal) = (fun j => varr m c (ix3 (slice ⟨n, h⟩) (j 0 : Fin 2048) (j 1 : Fin 128))) := by
  induction n using Nat.strong_induction_on with
  | _ n ih =>
    intro h
    by_cases h0 : n % 2 = 0
    · rw [outsAt0_A m c ⟨n, h⟩ h0]
      dsimp only
      refine ⟨?_, ?_⟩
      · refine (Pieces.scrK_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) ((hcond0_0 ⟨n, h⟩).mpr h0) (iblk m c 0 ⟨n, h⟩) (iblk m c 1 ⟨n, h⟩) (iblk m c 2 ⟨n, h⟩)).trans ?_
        funext j
        obtain ⟨p, q, rfl⟩ : ∃ (p : Fin 2048) (q : Fin 128), j = ix2 p q := ⟨j 0, j 1, eq_ix2 j⟩
        exact (Payload.pay1_apply (iblk m c 1 ⟨n, h⟩) p q).trans (kblk_apply m c ⟨n, h⟩ p q)
      · refine (Pieces.scrV_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) scM0_1 (Memref.isWhole_whole _) ((hcond0_0 ⟨n, h⟩).mpr h0) (iblk m c 0 ⟨n, h⟩) (iblk m c 1 ⟨n, h⟩) (iblk m c 2 ⟨n, h⟩)).trans ?_
        funext j
        obtain ⟨p, q, rfl⟩ : ∃ (p : Fin 2048) (q : Fin 128), j = ix2 p q := ⟨j 0, j 1, eq_ix2 j⟩
        exact (Payload.pay2_apply (iblk m c 2 ⟨n, h⟩) p q).trans (vblk_apply m c ⟨n, h⟩ p q)
    · have hlt : n - 1 < cfg0.N := Nat.lt_of_le_of_lt (Nat.sub_le _ _) h
      have ih' := ih (n - 1) (by omega) hlt
      have hs : slice ⟨n - 1, hlt⟩ = slice ⟨n, h⟩ := Fin.ext (by show (n - 1) / 2 = n / 2; omega)
      rw [hs] at ih'
      rw [outsAt0_B m c ⟨n, h⟩ h0]
      dsimp only
      unfold sout0_B_0 sout0_B_1
      exact ih'

/-- The output block of point t at (0, r, c): the attention output of row r of the point's query tile against
    the keys and values of the point's slice. -/
theorem out_eq (c : Dev nD) (t : Fin cfg0.N) (r : Fin 1024) (cc : Fin 128) :
    ((outsAt0 m c t.val t.isLt).1 : S1x1024x128.Idx → EReal) (ix3 (0 : Fin 1) r cc)
      = attn3 (qarr m c) (karr m c) (varr m c) (ix3 (slice t) (qrow t r) cc) := by
  have hq : (fun a : Fin 128 => (iblk m c 0 t : S1x1024x128.Idx → EReal) (ix3 (0 : Fin 1) r a))
      = fun a => qarr m c (ix3 (slice t) (qrow t r) a) := funext fun a => qblk_apply m c t r a
  by_cases h0 : t.val % 2 = 0
  · rw [outsAt0_A m c t h0]
    dsimp only
    refine (congrFun (Pieces.out_A (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (iblk m c 0 t) (iblk m c 1 t) (iblk m c 2 t)) (ix3 (0 : Fin 1) r cc)).trans ?_
    refine (Payload.pay3_apply (iblk m c 0 t) (k0_pay1 (iblk m c 1 t)) (k0_pay2 (iblk m c 2 t)) r cc).trans ?_
    have hk : (fun (j : Fin 2048) (a : Fin 128) => (k0_pay1 (F := Ideal) (iblk m c 1 t) : S2048x128.Idx → EReal) (ix2 j a))
        = fun j a => karr m c (ix3 (slice t) j a) :=
      funext fun j => funext fun a => (Payload.pay1_apply (iblk m c 1 t) j a).trans (kblk_apply m c t j a)
    have hv : (fun (j : Fin 2048) (a : Fin 128) => (k0_pay2 (F := Ideal) (iblk m c 2 t) : S2048x128.Idx → EReal) (ix2 j a))
        = fun j a => varr m c (ix3 (slice t) j a) :=
      funext fun j => funext fun a => (Payload.pay2_apply (iblk m c 2 t) j a).trans (vblk_apply m c t j a)
    show Cert.Attention.normLast _ _ _ cc = Cert.Attention.normLast (fun a : Fin 128 => qarr m c (ix3 (slice t) (qrow t r) a))
      (fun (j : Fin 2048) (a : Fin 128) => karr m c (ix3 (slice t) j a)) (fun (j : Fin 2048) (c' : Fin 128) => varr m c (ix3 (slice t) j c')) cc
    rw [hq, hk, hv]
  · have hlt : t.val - 1 < cfg0.N := Nat.lt_of_le_of_lt (Nat.sub_le _ _) t.isLt
    obtain ⟨sk, sv⟩ := scratch_eq m c (t.val - 1) hlt
    have hs : slice ⟨t.val - 1, hlt⟩ = slice t := Fin.ext (by show (t.val - 1) / 2 = t.val / 2; omega)
    rw [hs] at sk sv
    rw [outsAt0_B m c t h0]
    dsimp only
    refine (congrFun (Pieces.out_B (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (iblk m c 0 t) (iblk m c 1 t) (iblk m c 2 t)
      (outsAt0 m c (t.val - 1) hlt).2.1 (outsAt0 m c (t.val - 1) hlt).2.2) (ix3 (0 : Fin 1) r cc)).trans ?_
    refine (Payload.pay3_apply (iblk m c 0 t) (outsAt0 m c (t.val - 1) hlt).2.1 (outsAt0 m c (t.val - 1) hlt).2.2 r cc).trans ?_
    show Cert.Attention.normLast _ _ _ cc = Cert.Attention.normLast (fun a : Fin 128 => qarr m c (ix3 (slice t) (qrow t r) a))
      (fun (j : Fin 2048) (a : Fin 128) => karr m c (ix3 (slice t) j a)) (fun (j : Fin 2048) (c' : Fin 128) => varr m c (ix3 (slice t) j c')) cc
    rw [hq, sk, sv]

end Cert.KernelIdeal.Blocks

end
-- ==== Proof.KernelArray.lean ====
/-
  From blocks to the array, and through the host operations around the region.

  Point t writes back block t of the attention function of the three [64, 2048, 128] arrays as the region finds
  them; the 128 blocks (slice t / 2, rows (t % 2)·1024 …) tile the result array, so after the run it holds that
  function everywhere.  Before the region the host reshapes each [4, 16, 2048, 128] argument to [64, 2048, 128];
  after it, the host reshapes the result back.  So every execution of the idealized kernel ends with the result
  at the reshape of the attention of the reshaped arguments, and the arguments unchanged.
-/
import proofs.«403850_j39676907881791_3_alg».proof.Proof.KernelBlocks
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.AttnArray Cert.KernelIdeal.Blocks

variable (m : (ℓ : Loc nD τ sig) → Buf (Elt Ideal) ℓ) (ρ : Dev nD → PrngReg)

/-- What point t writes back is block t of the attention of the arrays as the region finds them. -/
theorem flushed_eq (c : Dev nD) (t : Fin cfg0.N) :
    (dats m 0 c).flushed 3 t = ((cfg0.win 3).blk t).view.read (Elt Ideal) (attn3 (qarr m c) (karr m c) (varr m c)) := by
  obtain ⟨-, -, -, -, -, -, -, -, -, e0, e1, e2⟩ := idx_facts t
  show (cfg0.win 3).cut (grid0.coords t) ((dats m 0 c).after 3 t) = _
  rw [after0_3]
  refine funext fun (y : S1x1024x128.Idx) => ?_
  obtain ⟨u, r, cc, rfl⟩ : ∃ (u : Fin 1) (r : Fin 1024) (cc : Fin 128), y = ix3 u r cc := ⟨y 0, y 1, y 2, eq_ix3 y⟩
  obtain rfl : u = 0 := Subsingleton.elim _ _
  show ((outsAt0 m c t.val t.isLt).1 : S1x1024x128.Idx → EReal) (ix3 (0 : Fin 1) r cc)
    = attn3 (qarr m c) (karr m c) (varr m c) (((cfg0.win 3).blk t).view.emb (ix3 (0 : Fin 1) r cc))
  rw [out_eq]
  congr 1
  funext ax
  apply Fin.ext
  match ax with
  | ⟨0, _⟩ => show t.val / 2 = win0_3.index t (0 : Fin 3) * 1 + 1 * 0; omega
  | ⟨1, _⟩ => show (t.val % 2) * 1024 + r.val = win0_3.index t (1 : Fin 3) * 1024 + 1 * r.val; omega
  | ⟨2, _⟩ => show cc.val = win0_3.index t (2 : Fin 3) * 128 + 1 * cc.val; omega

/-- An index of the result array is in point t's block iff each coordinate is in the block's range. -/
theorem mem_blk (t : Fin cfg0.N) (i : S64x2048x128.Idx) :
    i ∈ ((cfg0.win 3).blk t).view.set ↔ ∀ a : Fin 3, win0_3.index t a * S1x1024x128.size a ≤ (i a).val
      ∧ (i a).val < win0_3.index t a * S1x1024x128.size a + S1x1024x128.size a := by
  show i ∈ ((View.whole main_v3).slice (win0_3.rect t)).set ↔ _
  rw [View.set_slice_whole, Rect.mem_set_unit]
  exact Iff.rfl

/-- Every index (s, r, c) of the result array is in the block of point 2·s + r / 1024. -/
theorem cover (i : S64x2048x128.Idx) :
    ∃ t : Fin cfg0.N, (cfg0.win 3).flush t = true ∧ i ∈ ((cfg0.win 3).blk t).view.set := by
  have h0 : (i 0).val < 64 := (i 0).isLt
  have h1 : (i 1).val < 2048 := (i 1).isLt
  have h2 : (i 2).val < 128 := (i 2).isLt
  have hN : cfg0.N = 128 := N_0
  have ht : 2 * (i 0).val + (i 1).val / 1024 < cfg0.N := by omega
  obtain ⟨-, -, -, -, -, -, -, -, -, e0, e1, e2⟩ := idx_facts ⟨2 * (i 0).val + (i 1).val / 1024, ht⟩
  have e0' : win0_3.index ⟨2 * (i 0).val + (i 1).val / 1024, ht⟩ (0 : Fin 3) = (2 * (i 0).val + (i 1).val / 1024) / 2 := e0
  have e1' : win0_3.index ⟨2 * (i 0).val + (i 1).val / 1024, ht⟩ (1 : Fin 3) = (2 * (i 0).val + (i 1).val / 1024) % 2 := e1
  refine ⟨⟨2 * (i 0).val + (i 1).val / 1024, ht⟩, flush0_3 _, ?_⟩
  rw [mem_blk]
  intro a
  match a with
  | ⟨0, _⟩ =>
    show win0_3.index _ (0 : Fin 3) * 1 ≤ (i 0).val ∧ (i 0).val < win0_3.index _ (0 : Fin 3) * 1 + 1
    omega
  | ⟨1, _⟩ =>
    show win0_3.index _ (1 : Fin 3) * 1024 ≤ (i 1).val ∧ (i 1).val < win0_3.index _ (1 : Fin 3) * 1024 + 1024
    omega
  | ⟨2, _⟩ =>
    show win0_3.index _ (2 : Fin 3) * 128 ≤ (i 2).val ∧ (i 2).val < win0_3.index _ (2 : Fin 3) * 128 + 128
    omega

/-- The result array after the run: the attention of the arrays as the region finds them. -/
theorem final (c : Dev nD) : (dats m 0 c).arrAt 3 cfg0.N = attn3 (qarr m c) (karr m c) (varr m c) :=
  (dats m 0 c).arrAt_eq_of_cover 3 (attn3 (qarr m c) (karr m c) (varr m c)) (fun t _ => flushed_eq m c t) cover

/-- The region finds each array at the reshape of its argument. -/
theorem qarr_eq (c : Dev nD) :
    qarr m c = shapeCast S64x2048x128 (m ((c : Thread nD τ).loc main_arg0)) shapeCasts_S4x16x2048x128_S64x2048x128 := by
  show StableHlo.after hostOps0 (fun b => m (c, b)) (Proc.devRef .tc main_v0) = _
  after_results
  rfl
theorem karr_eq (c : Dev nD) :
    karr m c = shapeCast S64x2048x128 (m ((c : Thread nD τ).loc main_arg1)) shapeCasts_S4x16x2048x128_S64x2048x128 := by
  show StableHlo.after hostOps0 (fun b => m (c, b)) (Proc.devRef .tc main_v1) = _
  after_results
  rfl
theorem varr_eq (c : Dev nD) :
    varr m c = shapeCast S64x2048x128 (m ((c : Thread nD τ).loc main_arg2)) shapeCasts_S4x16x2048x128_S64x2048x128 := by
  show StableHlo.after hostOps0 (fun b => m (c, b)) (Proc.devRef .tc main_v2) = _
  after_results
  rfl

/-- The kernel's result as a function of the argument arrays: reshape, attention, reshape back. -/
def result (Q K V : S4x16x2048x128.Idx → EReal) : S4x16x2048x128.Idx → EReal :=
  shapeCast S4x16x2048x128
    (attn3 (shapeCast S64x2048x128 Q shapeCasts_S4x16x2048x128_S64x2048x128)
      (shapeCast S64x2048x128 K shapeCasts_S4x16x2048x128_S64x2048x128)
      (shapeCast S64x2048x128 V shapeCasts_S4x16x2048x128_S64x2048x128))
    shapeCasts_S64x2048x128_S4x16x2048x128

/-- After the host's last reshape the result buffer holds `result` of the arguments. -/
theorem tail_eq (c : Dev nD) :
    Pipeline.afterTail₀ cfgs (dats m) 0 (V0 m) [hostOps1] c main_v4
      = result (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  refine funext fun i => ?_
  show shapeCast S4x16x2048x128 (Pipeline.withArrays spec0 c (V0 m c) (fun w => (dats m 0 c).arrAt w cfg0.N)
      (Proc.devRef .tc (Pipeline.arrRef spec0 3))) shapeCasts_S64x2048x128_S4x16x2048x128 i = _
  rw [Pipeline.withArrays_arr spec0 launch0.win.arr_inj c (V0 m c) _ 3, final m c]
  unfold result
  rw [qarr_eq m c, karr_eq m c, varr_eq m c]

/-- The run of the idealized kernel, read: the result buffer at `result` of the arguments, the arguments unchanged. -/
theorem run : θ_run defs (onTc (τ := τ) (main (F := Ideal))) ⟨m, fun _ => 0, ρ⟩ fun r => ∀ c : Dev nD,
      r.2.mem ((c.tc : Thread nD τ).loc main_v4)
        = result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.lean ====
/-
  Naive scaled-dot-product attention (scale 1, no mask) over f32[4, 16, 2048, 128]: a kernel on a grid of
  64 (batch·head) slices × 2 query tiles against `einsum → softmax → einsum`.

  Over the extended reals every change of float format is the identity, so for the query row (b, h, r) both
  programs compute, with score j = ∑ₐ q a · k j a, the row maximum M (the fold of max from −∞ over the keys) and
  weight j = exp (score j − M):
    kernel:     (∑ⱼ weight j · v j c) / (∑ⱼ weight j)         — one division, after the product with the values;
    reference:  ∑ⱼ (weight j / (0 + ∑ⱼ weight j)) · v j c     — the softmax first (its scores times the constant 1,
                                                                 its maximum joined once more with −∞).
  These agree when division distributes over the sum, which on the extended reals needs the terms to be real
  numbers: the precondition (every input entry finite) makes every score, the maximum, every weight and the
  positive denominator real (Proof/Spec.lean `normLast_eq_normFirst`).

  The kernel side: the body's stored values per control case (Proof/KernelPieces.lean), those values read at an
  index (Proof/KernelPayload.lean), the scratch that carries the slice's keys and values from the first tile to
  the second, by induction over the grid points (Proof/KernelBlocks.lean), the blocks tiling the result array and
  the host reshapes around the region (Proof/KernelArray.lean, Proof/AttnArray.lean).  The reference side: its
  run read one operation at a time at an index (Proof/RefValue.lean).  Finiteness out of the printed
  precondition: Proof/Finite.lean.
-/
import proofs.«403850_j39676907881791_3_alg».proof.Defs
import proofs.«403850_j39676907881791_3_alg».proof.Proof.Gen.Kernel
import proofs.«403850_j39676907881791_3_alg».proof.Proof.Gen.Kernel.Skeleton
import proofs.«403850_j39676907881791_3_alg».proof.Proof.Gen.Kernel.Launch
import proofs.«403850_j39676907881791_3_alg».proof.Proof.Gen.Kernel.Points
import proofs.«403850_j39676907881791_3_alg».proof.Proof.Gen.Kernel.Frame
import proofs.«403850_j39676907881791_3_alg».proof.Proof.Gen.KernelIdeal
import proofs.«403850_j39676907881791_3_alg».proof.Proof.Gen.KernelIdeal.Skeleton
import proofs.«403850_j39676907881791_3_alg».proof.Proof.Gen.KernelIdeal.Launch
import proofs.«403850_j39676907881791_3_alg».proof.Proof.Gen.KernelIdeal.Points
import proofs.«403850_j39676907881791_3_alg».proof.Proof.Gen.KernelIdeal.Frame
import proofs.«403850_j39676907881791_3_alg».proof.Proof.Gen.ReferenceIdeal
import proofs.«403850_j39676907881791_3_alg».proof.Proof.Gen.Pre_finite_inputs
import proofs.«403850_j39676907881791_3_alg».proof.Proof.Gen.ReferenceIdeal.Run
import proofs.«403850_j39676907881791_3_alg».proof.Proof.Gen.ReferenceIdeal.Read
import proofs.«403850_j39676907881791_3_alg».proof.Proof.Spec
import proofs.«403850_j39676907881791_3_alg».proof.Proof.Finite
import proofs.«403850_j39676907881791_3_alg».proof.Proof.RefValue
import proofs.«403850_j39676907881791_3_alg».proof.Proof.AttnArray
import proofs.«403850_j39676907881791_3_alg».proof.Proof.KernelArray
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the same result: at (b, h, r, c) the kernel's is the row's attention output normalised
    last, the reference's the same normalised first, and under finite inputs the two are equal. -/
theorem algebraic : Cert.algebraic_KernelIdeal_ReferenceIdeal := by
  intro m ρ m' ρ' hpre hagree
  refine ⟨fun c => Cert.KernelIdeal.Result.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v14_eq]
  obtain ⟨hq, hk, hv⟩ := Cert.Pre_finite_inputs.Finite.real_of_pre _ _ _ (hpre c)
  funext i
  obtain ⟨b, hh, r, cc, rfl⟩ : ∃ (b : Fin 4) (hh : Fin 16) (r : Fin 2048) (cc : Fin 128), i = ix4 b hh r cc :=
    ⟨i 0, i 1, i 2, i 3, eq_ix4 i⟩
  rw [Cert.ReferenceIdeal.RefValue.result_apply]
  beta_reduce
  unfold Cert.KernelIdeal.Result.result
  rw [Cert.KernelIdeal.AttnArray.reshape_attn3]
  exact (Cert.Attention.normLast_eq_normFirst (by norm_num) _ _ _ (fun a => hq _) (fun j a => hk _) (fun j c' => hv _) cc).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
